-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x8192x1024 .f32) (main_arg1 : FVec F S8192x1024 .f32) (main_arg2 : FVec F S1024x1024 .f32) (main_arg3 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x8192x1024 : Shape := ⟨3, ![4, 8192, 1024]⟩
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S4x512x1024 : Shape := ⟨3, ![4, 512, 1024]⟩
abbrev S1x512x1024 : Shape := ⟨3, ![1, 512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S4x8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S4x512x1024, .f32⟩
  | .local _ .vmem, ⟨5, _⟩ => ⟨S4x512x1024, .f32⟩
  | .local _ .vmem, ⟨6, _⟩ => ⟨S4x512x1024, .f32⟩
  | .local _ .vmem, ⟨7, _⟩ => ⟨S4x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S4x512x1024_S4x512x1024_0_0_0 : ∀ a, (![0, 0, 0] : Fin 3 → Nat) a + S4x512x1024.size a ≤ S4x512x1024.size a
  h_S4x512x1024 : 0 < S4x512x1024.numel
  shapeCasts_S512x1024_S1x512x1024 : S512x1024.ShapeCasts S1x512x1024
  broadcasts_S1x512x1024_S4x512x1024 : S1x512x1024.Broadcasts S4x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x1024.size a ≤ S4x8192x1024.size a
  hwx0_3 : ∀ i : grid0.Coords, EltTy.bits .f32 = 32 ∨ (Rect.block (s := S4x8192x1024) S4x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x1024.size a ≤ S4x8192x1024.size a
  hwx0_4 : ∀ i : grid0.Coords, EltTy.bits .f32 = 32 ∨ (Rect.block (s := S4x8192x1024) S4x512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S4x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S1024x1024 : Shape := ⟨2, ![1024, 1024]⟩
abbrev S1024 : Shape := ⟨1, ![1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x1024 : Shape := ⟨2, ![1, 1024]⟩
abbrev S1x8192x1024 : Shape := ⟨3, ![1, 8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S1x1, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i1⟩
  | .hbm, ⟨22, _⟩ => ⟨S8192, .i1⟩
  | .hbm, ⟨23, _⟩ => ⟨S8192x1024, .f32⟩
  | .hbm, ⟨24, _⟩ => ⟨S8192x1024, .i1⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x8192x1024, .f32⟩
  | .hbm, ⟨33, _⟩ => ⟨S4x8192x1024, .f32⟩
  | .hbm, ⟨34, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S8192x1024_S1x8192x1024_1_2 : S8192x1024.BroadcastsInDim S1x8192x1024 (![1, 2] : Fin 2 → Fin S1x8192x1024.rank)
  bcast_S1x8192x1024_S4x8192x1024_0_1_2 : S1x8192x1024.BroadcastsInDim S4x8192x1024 (![0, 1, 2] : Fin 3 → Fin S4x8192x1024.rank)
  gather_S8192x1024_S8192x1_S8192x1024_1_0_n_n_0_1_11024_wf : GatherDims.WF S8192x1024 S8192x1 S8192x1024 [1] [0] [] [0] [] 1 ![1, 1024]
  dot_S8192x1024_S1024x1024_S8192x1024_1_0_0_1_n_n_wf : DotDims.WF S8192x1024 S1024x1024 S8192x1024 [1] [0] [0] [1] [] []

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.LibPlainDot.lean ====
/-
  A matrix product with one contracted axis, read at one entry.

  For any dimension record of an M × K array against a K × N array that contracts the first array's columns with the
  second's rows, keeps the first array's rows and the second's columns, and has no batch axis, the sum over the record's
  contraction index of the operands' products at result entry (p, q) is the sum over k of entry (p, k) of the first
  times entry (k, q) of the second. Stated for an arbitrary record whose fields are given as hypotheses, at arbitrary
  extents, so that it serves a block product and a whole-array product alike.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The shape of an array of R rows and C columns. -/
abbrev Sh (R C : Nat) : Shape := ⟨2, ![R, C]⟩

section Axes

variable {M K N : Nat} (d : DotDims (Sh M K) (Sh K N) (Sh M N))

/-- An index read at two names of one axis gives one coordinate. -/
theorem idx_val_congr {s : Shape} (j : s.Idx) (p q : Nat) (hp : p < s.rank) (hq : q < s.rank) (h : p = q) :
    (j ⟨p, hp⟩).val = (j ⟨q, hq⟩).val := by
  subst h; rfl

/-- On its row axis, the one kept axis of the first operand, the first operand's index is the result's row. -/
theorem lhs_row (hlb : d.lhsBatch = []) (hln : d.lhsNonContracting = [0]) (j : (Sh M N).Idx) (k : d.contr.Idx) :
    (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact idx_val_congr j _ _ _ _ (by simp [hlb, hln])

/-- On its column axis, the one kept axis of the second operand, the second operand's index is the result's column. -/
theorem rhs_col (hlb : d.lhsBatch = []) (hrb : d.rhsBatch = []) (hln : d.lhsNonContracting = [0])
    (hrn : d.rhsNonContracting = [1]) (j : (Sh M N).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact idx_val_congr j _ _ _ _ (by simp [hlb, hln, hrn])

/-- The record contracts one axis. -/
theorem contr_rank (hlc : d.lhsContracting = [1]) : d.contr.rank = 1 := by
  rw [d.rank_contr, hlc]; rfl

/-- That axis has the first operand's column extent. -/
theorem contr_size (hlc : d.lhsContracting = [1]) :
    d.contr.size ⟨0, by rw [contr_rank d hlc]; exact Nat.one_pos⟩ = K := by
  have h0 : 0 < d.lhsContracting.length := by rw [hlc]; exact Nat.one_pos
  have e : d.lhsContracting[0] = (1 : Fin 2) := by simp [hlc]
  rw [d.size_contr 0 h0, e]
  rfl

end Axes

section Sum

variable {M K N : Nat} (d : DotDims (Sh M K) (Sh K N) (Sh M N))

/-- THE PRODUCT AT ONE ENTRY: the sum over the record's contraction index at result entry (p, q) is the sum over k of
    the first operand's entry (p, k) times the second's entry (k, q). -/
theorem sum_plain (hlc : d.lhsContracting = [1]) (hrc : d.rhsContracting = [0]) (hln : d.lhsNonContracting = [0])
    (hrn : d.rhsNonContracting = [1]) (hlb : d.lhsBatch = []) (hrb : d.rhsBatch = [])
    (l : (Sh M K).Idx → EReal) (r : (Sh K N).Idx → EReal) (p : Fin M) (q : Fin N) :
    ∑ k : d.contr.Idx, l (d.lhsIdx (ix2 p q) k) * r (d.rhsIdx (ix2 p q) k) = ∑ k : Fin K, l (ix2 p k) * r (ix2 k q) := by
  have hr : d.contr.rank = 1 := contr_rank d hlc
  have hs : d.contr.size ⟨0, by omega⟩ = K := contr_size d hlc
  rw [← Equiv.sum_comp (contrEquiv1 d K hr hs).symm]
  refine Finset.sum_congr rfl fun k _ => ?_
  have el : d.lhsIdx (ix2 p q) ((contrEquiv1 d K hr hs).symm k) = ix2 p k := by
    funext a
    match a with
    | ⟨0, _⟩ => exact Fin.ext (lhs_row d hlb hln _ _)
    | ⟨1, _⟩ => exact Fin.ext ((d.lhsIdx_val_of_single hlc _ _).trans (contrEquiv1_symm_val d K hr hs k))
  have er : d.rhsIdx (ix2 p q) ((contrEquiv1 d K hr hs).symm k) = ix2 k q := by
    funext a
    match a with
    | ⟨0, _⟩ => exact Fin.ext ((d.rhsIdx_val_of_single hrc _ _).trans (contrEquiv1_symm_val d K hr hs k))
    | ⟨1, _⟩ => exact Fin.ext (rhs_col d hlb hrb hln hrn _ _)
  rw [el, er]

/-- A block product into a zero accumulator, at one entry, is that sum. -/
theorem matmul_zero_plain {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (l : FVec Ideal (Sh M K) φ₁) (r : FVec Ideal (Sh K N) φ₂) (p : Fin M) (q : Fin N) :
    matmul (F := Ideal) d prec l r (constant (Sh M N) .f32 0x00000000#32) (ix2 p q) = ∑ k : Fin K, l (ix2 p k) * r (ix2 k q) :=
  (Ideal.matmul_constant_zero_apply d prec l r (ix2 p q)).trans (sum_plain d hlc hrc hln hrn hlb hrb l r p q)

/-- The host's product of two whole arrays, at one entry, is that sum. -/
theorem dotGeneral_plain {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (l : FVec Ideal (Sh M K) φ₁) (r : FVec Ideal (Sh K N) φ₂) (p : Fin M) (q : Fin N) :
    Host.dotGeneral (F := Ideal) d prec l r (ix2 p q) = ∑ k : Fin K, l (ix2 p k) * r (ix2 k q) := by
  simp only [Host.dotGeneral]
  exact (Ideal.dotGeneral_apply d prec _ l r (ix2 p q)).trans (sum_plain d hlc hrc hln hrn hlb hrb l r p q)

end Sum

end Cert.LibDot

end
-- ==== Proof.PosEmbed.lean ====
/-
  The function both programs compute, over the extended reals.

  out[a, s, d] = x[a, s, d] + (∑ₖ table[s, k] · W[k, d] + bias[d])

  for a batch member a of 4, a position s of 8192 and a feature d of 1024: position s's table row is projected by W,
  the bias is added, and the projected row is added to every batch member's row s.
-/
import Idealize.ShloMosaic.PureOps.Ideal
import Idealize.ShloMosaic.Lib.ValueIdx

noncomputable section

open scoped BigOperators

namespace Cert.PosEmbed

open Idealize.ShloMosaic Idealize.ShloMosaic.ValueIdx

/-- Entry d of position s's projected row: the table row times column d of W, plus the bias at d. -/
def proj (t : (⟨2, ![8192, 1024]⟩ : Shape).Idx → EReal) (w : (⟨2, ![1024, 1024]⟩ : Shape).Idx → EReal)
    (b : (⟨1, ![1024]⟩ : Shape).Idx → EReal) (s : Fin 8192) (d : Fin 1024) : EReal :=
  (∑ k : Fin 1024, t (ix2 s k) * w (ix2 k d)) + b (ix1 d)

/-- The whole result: every batch member's row s plus position s's projected row. -/
def out (x : (⟨3, ![4, 8192, 1024]⟩ : Shape).Idx → EReal) (t : (⟨2, ![8192, 1024]⟩ : Shape).Idx → EReal)
    (w : (⟨2, ![1024, 1024]⟩ : Shape).Idx → EReal) (b : (⟨1, ![1024]⟩ : Shape).Idx → EReal) :
    (⟨3, ![4, 8192, 1024]⟩ : Shape).Idx → EReal :=
  fun j => x j + proj t w b (j 1) (j 2)

/-- The result at explicit coordinates. -/
theorem out_ix3 (x : (⟨3, ![4, 8192, 1024]⟩ : Shape).Idx → EReal) (t : (⟨2, ![8192, 1024]⟩ : Shape).Idx → EReal)
    (w : (⟨2, ![1024, 1024]⟩ : Shape).Idx → EReal) (b : (⟨1, ![1024]⟩ : Shape).Idx → EReal)
    (a : Fin 4) (s : Fin 8192) (d : Fin 1024) :
    out x t w b (ix3 a s d) = x (ix3 a s d) + proj t w b s d := rfl

end Cert.PosEmbed

end
-- ==== Proof.KernelArray.lean ====
/-
  The kernel's result array is the specification.

  The grid has 16 points. Point t stages rows 512 t … 512 t + 511 of the table, all of W, the bias as one row, and rows
  512 t … 512 t + 511 of every batch member of the inputs, and writes back the same rows of every batch member of the
  result. At local entry (a, r, d) the body's one store holds
      x[a, r, d] + (∑ₖ table[r, k] · W[k, d] + bias[0, d])
  over the staged blocks: the narrowing of the two product operands changes no value over the extended reals, the block
  product starts from a zero accumulator, the bias row is laid under every row, and the projected block is laid under
  every batch member. Read back through the windows that is the specification at row 512 t + r; every row of the
  result lies in exactly the block of point row / 512, so the whole array ends at the specification.
-/
import proofs.«128476_g47974784697239_cont_8to1_c_969_6_alg».proof.Proof.Gen.KernelIdeal.Value
import proofs.«128476_g47974784697239_cont_8to1_c_969_6_alg».proof.Proof.LibPlainDot
import proofs.«128476_g47974784697239_cont_8to1_c_969_6_alg».proof.Proof.PosEmbed
import Idealize.ShloMosaic.Lib.Pipeline.Value
import Idealize.ShloMosaic.Lib.ValueLayout
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

/-! ## One point's arithmetic -/

/-- The body's stored value at local entry (a, r, d), over any four staged blocks. -/
theorem pay_apply (x0 : Vec Ideal S512x1024 .f32) (x1 : Vec Ideal S1024x1024 .f32) (x2 : Vec Ideal S1x1024 .f32)
    (x3 : Vec Ideal S4x512x1024 .f32) (a : Fin 4) (r : Fin 512) (d : Fin 1024) :
    k0_pay1 x0 x1 x2 x3 (ix3 a r d)
      = x3 (ix3 a r d) + ((∑ k : Fin 1024, x0 (ix2 r k) * x1 (ix2 k d)) + x2 (ix2 (0 : Fin 1) d)) := by
  have under_batch : ∀ (v : FVec Ideal S1x512x1024 .f32) (h : S1x512x1024.Broadcasts S4x512x1024),
      broadcastTo S4x512x1024 v h (ix3 a r d) = v (ix3 (0 : Fin 1) r d) := fun v h =>
    broadcastTo_apply v h (ix3 a r d) (ix3 (0 : Fin 1) r d) (fun ax => by
      match ax with
      | ⟨0, _⟩ => rfl
      | ⟨1, _⟩ => rfl
      | ⟨2, _⟩ => rfl)
  have as_one_member : ∀ (v : FVec Ideal S512x1024 .f32) (h : S512x1024.ShapeCasts S1x512x1024),
      shapeCast S1x512x1024 v h (ix3 (0 : Fin 1) r d) = v (ix2 r d) := fun v h =>
    (shapeCast_addUnit_apply ![512, 1024] v h (ix3 (0 : Fin 1) r d)).trans (congrArg v (funext fun ax => by
      match ax with
      | ⟨0, _⟩ => rfl
      | ⟨1, _⟩ => rfl))
  have under_rows : ∀ (v : FVec Ideal S1x1024 .f32) (h : S1x1024.Broadcasts S512x1024),
      broadcastTo S512x1024 v h (ix2 r d) = v (ix2 (0 : Fin 1) d) := fun v h => broadcastTo_1b_ab_apply v h r d
  unfold k0_pay1
  rw [addf_apply, under_batch, as_one_member, addf_apply,
    LibDot.matmul_zero_plain dot_S512x1024_S1024x1024_S512x1024_1_0_0_1_n_n none rfl rfl rfl rfl rfl rfl _ _ r d,
    under_rows, shapeCast_self]
  rfl

/-- One point against the specification: if the four staged blocks read the arrays X, T, W, B at position s where the
    body reads them at local row r, the stored value at (a, r, d) is the specification of those arrays at (a, s, d). -/
theorem point_eq (X : (⟨3, ![4, 8192, 1024]⟩ : Shape).Idx → EReal) (T : (⟨2, ![8192, 1024]⟩ : Shape).Idx → EReal)
    (W : (⟨2, ![1024, 1024]⟩ : Shape).Idx → EReal) (B : (⟨1, ![1024]⟩ : Shape).Idx → EReal)
    (x0 : Vec Ideal S512x1024 .f32) (x1 : Vec Ideal S1024x1024 .f32) (x2 : Vec Ideal S1x1024 .f32)
    (x3 : Vec Ideal S4x512x1024 .f32) (a : Fin 4) (r : Fin 512) (d : Fin 1024) (s : Fin 8192)
    (h3 : x3 (ix3 a r d) = X (ix3 a s d)) (h0 : ∀ k : Fin 1024, x0 (ix2 r k) = T (ix2 s k))
    (h1 : ∀ k : Fin 1024, x1 (ix2 k d) = W (ix2 k d)) (h2 : x2 (ix2 (0 : Fin 1) d) = B (ix1 d)) :
    k0_pay1 x0 x1 x2 x3 (ix3 a r d) = PosEmbed.out X T W B (ix3 a s d) := by
  rw [pay_apply, PosEmbed.out_ix3, h3, h2]
  unfold PosEmbed.proj
  simp only [h0, h1]

variable (m : (ℓ : Loc nD τ sig) → Buf (Elt Ideal) ℓ) (ρ : Dev nD → PrngReg)

/-! ## What the windows stage -/

theorem hz2 : (![0, 0] : Fin 2 → Nat) = fun _ => 0 := funext fun a => by
  match a with
  | ⟨0, _⟩ => rfl
  | ⟨1, _⟩ => rfl

theorem hz3 : (![0, 0, 0] : Fin 3 → Nat) = fun _ => 0 := funext fun a => by
  match a with
  | ⟨0, _⟩ => rfl
  | ⟨1, _⟩ => rfl
  | ⟨2, _⟩ => rfl

/-- The printed index maps over the 16 points: the table's and the inputs' and the result's windows move down the
    position axis with the point; W's and the bias's stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0
    ∧ win0_4.index t (0 : Fin 3) = 0 ∧ win0_4.index t (1 : Fin 3) = t.val ∧ win0_4.index t (2 : Fin 3) = 0 :=
  (by decide +kernel : ∀ t : Fin grid0.N, _)

/-- The position that local row r of point t is. -/
def rowAt (t : Fin cfg0.N) (r : Fin 512) : Fin 8192 :=
  ⟨512 * t.val + r.val, by have h : t.val < 16 := lt_of_lt_of_eq t.isLt N_0; have := r.isLt; omega⟩

/-- The bias window's array is the bias vector as one row (the host reshapes it before the region). -/
theorem bias_row (c : Dev nD) (d : Fin 1024) :
    V m c main_v0 (ix2 (0 : Fin 1) d) = m ((c : Thread nD τ).loc main_arg3) (ix1 d) := by
  have e : (V m c main_v0 : S1x1024.Idx → EReal)
      = shapeCast S1x1024 (m ((c : Thread nD τ).loc main_arg3) : S1024.Idx → EReal) shapeCasts_S1024_S1x1024 := by
    dsimp only [V, hostOps0]
    after_results
    rfl
  rw [e]
  exact (shapeCast_addUnit_apply ![1024] _ _ (ix2 (0 : Fin 1) d)).trans (congrArg _ (funext fun ax => by
    match ax with
    | ⟨0, _⟩ => rfl))

/-- The table window's block at point t is rows 512 t … of the table. -/
theorem blk_table (c : Dev nD) (t : Fin cfg0.N) (r : Fin 512) (k : Fin 1024) :
    iblk m c 0 t (ix2 r k) = V m c main_arg1 (ix2 (rowAt t r) k) := by
  show V m c main_arg1 (((cfg0.win 0).blk t).view.emb (ix2 r k)) = _
  refine congrArg _ (funext fun a => Fin.ext ?_)
  obtain ⟨e00, e01, -⟩ := idx_facts t
  match a with
  | ⟨0, _⟩ => show win0_0.index t (0 : Fin 2) * 512 + 1 * r.val = 512 * t.val + r.val; omega
  | ⟨1, _⟩ => show win0_0.index t (1 : Fin 2) * 1024 + 1 * k.val = k.val; omega

/-- W's window stages all of W at every point. -/
theorem blk_w (c : Dev nD) (t : Fin cfg0.N) (k : Fin 1024) (d : Fin 1024) :
    iblk m c 1 t (ix2 k d) = V m c main_arg2 (ix2 k d) := by
  show V m c main_arg2 (((cfg0.win 1).blk t).view.emb (ix2 k d)) = _
  refine congrArg _ (funext fun a => Fin.ext ?_)
  obtain ⟨-, -, e10, e11, -⟩ := idx_facts t
  match a with
  | ⟨0, _⟩ => show win0_1.index t (0 : Fin 2) * 1024 + 1 * k.val = k.val; omega
  | ⟨1, _⟩ => show win0_1.index t (1 : Fin 2) * 1024 + 1 * d.val = d.val; omega

/-- The bias window stages the one bias row at every point. -/
theorem blk_bias (c : Dev nD) (t : Fin cfg0.N) (d : Fin 1024) :
    iblk m c 2 t (ix2 (0 : Fin 1) d) = V m c main_v0 (ix2 (0 : Fin 1) d) := by
  show V m c main_v0 (((cfg0.win 2).blk t).view.emb (ix2 (0 : Fin 1) d)) = _
  refine congrArg _ (funext fun a => Fin.ext ?_)
  obtain ⟨-, -, -, -, e20, e21, -⟩ := idx_facts t
  match a with
  | ⟨0, _⟩ => show win0_2.index t (0 : Fin 2) * 1 + 1 * 0 = 0; omega
  | ⟨1, _⟩ => show win0_2.index t (1 : Fin 2) * 1024 + 1 * d.val = d.val; omega

/-- The inputs' window's block at point t is rows 512 t … of every batch member. -/
theorem blk_x (c : Dev nD) (t : Fin cfg0.N) (a : Fin 4) (r : Fin 512) (d : Fin 1024) :
    iblk m c 3 t (ix3 a r d) = V m c main_arg0 (ix3 a (rowAt t r) d) := by
  show V m c main_arg0 (((cfg0.win 3).blk t).view.emb (ix3 a r d)) = _
  refine congrArg _ (funext fun ax => Fin.ext ?_)
  obtain ⟨-, -, -, -, -, -, e30, e31, e32, -⟩ := idx_facts t
  match ax with
  | ⟨0, _⟩ => show win0_3.index t (0 : Fin 3) * 4 + 1 * a.val = a.val; omega
  | ⟨1, _⟩ => show win0_3.index t (1 : Fin 3) * 512 + 1 * r.val = 512 * t.val + r.val; omega
  | ⟨2, _⟩ => show win0_3.index t (2 : Fin 3) * 1024 + 1 * d.val = d.val; omega

/-- Local entry (a, r, d) of the result window's block at point t is entry (a, 512 t + r, d) of the result. -/
theorem emb_out (t : Fin cfg0.N) (a : Fin 4) (r : Fin 512) (d : Fin 1024) :
    ((cfg0.win 4).blk t).view.emb (ix3 a r d) = ix3 a (rowAt t r) d := by
  refine funext fun ax => Fin.ext ?_
  obtain ⟨-, -, -, -, -, -, -, -, -, e40, e41, e42⟩ := idx_facts t
  match ax with
  | ⟨0, _⟩ => show win0_4.index t (0 : Fin 3) * 4 + 1 * a.val = a.val; omega
  | ⟨1, _⟩ => show win0_4.index t (1 : Fin 3) * 512 + 1 * r.val = 512 * t.val + r.val; omega
  | ⟨2, _⟩ => show win0_4.index t (2 : Fin 3) * 1024 + 1 * d.val = d.val; omega

/-! ## From the points' blocks to the array -/

/-- The specification over the arrays as the region finds them. -/
abbrev spec (c : Dev nD) : S4x8192x1024.Idx → EReal :=
  PosEmbed.out (V m c main_arg0) (V m c main_arg1) (V m c main_arg2) (m ((c : Thread nD τ).loc main_arg3))

/-- What point t writes back is its block of the specification. -/
theorem flushed_eq (c : Dev nD) (t : Fin cfg0.N) :
    (dats m 0 c).flushed 4 t = ((cfg0.win 4).blk t).view.read (Elt Ideal) (spec m c) := by
  rw [Value.flushed4]
  unfold out0_4
  rw [View.canon_unit_zero hz3]
  simp only [View.ld_unit_zero (S := S512x1024) hz2, View.ld_unit_zero (S := S1024x1024) hz2,
    View.ld_unit_zero (S := S1x1024) hz2, View.ld_unit_zero (S := S4x512x1024) hz3]
  funext j
  obtain ⟨a, r, d, rfl⟩ : ∃ (a : Fin 4) (r : Fin 512) (d : Fin 1024), j = ix3 a r d := ⟨j 0, j 1, j 2, eq_ix3 j⟩
  show k0_pay1 (iblk m c 0 t) (iblk m c 1 t) (iblk m c 2 t) (iblk m c 3 t) (ix3 a r d)
    = spec m c (((cfg0.win 4).blk t).view.emb (ix3 a r d))
  rw [emb_out t a r d]
  exact point_eq (V m c main_arg0) (V m c main_arg1) (V m c main_arg2) (m ((c : Thread nD τ).loc main_arg3))
    (iblk m c 0 t) (iblk m c 1 t) (iblk m c 2 t) (iblk m c 3 t) a r d (rowAt t r)
    (blk_x m c t a r d) (fun k => blk_table m c t r k) (fun k => blk_w m c t k d)
    ((blk_bias m c t d).trans (bias_row m c d))

/-- An index of the result is in point t's block iff each coordinate is in the block's range on its axis. -/
theorem mem_blk (t : Fin cfg0.N) (i : S4x8192x1024.Idx) :
    i ∈ ((cfg0.win 4).blk t).view.set ↔ ∀ a : Fin 3, win0_4.index t a * S4x512x1024.size a ≤ (i a).val
      ∧ (i a).val < win0_4.index t a * S4x512x1024.size a + S4x512x1024.size a := by
  show i ∈ ((View.whole main_v1).slice (win0_4.rect t)).set ↔ _
  rw [View.set_slice_whole, Rect.mem_set_unit]
  exact Iff.rfl

/-- Every entry of the result lies in the block of the point its position divided by 512 names. -/
theorem cover (i : S4x8192x1024.Idx) :
    ∃ t : Fin cfg0.N, (cfg0.win 4).flush t = true ∧ i ∈ ((cfg0.win 4).blk t).view.set := by
  have h0 : (i 0).val < 4 := (i 0).isLt
  have h1 : (i 1).val < 8192 := (i 1).isLt
  have h2 : (i 2).val < 1024 := (i 2).isLt
  have hN : (i 1).val / 512 < cfg0.N := lt_of_lt_of_eq (by omega : (i 1).val / 512 < 16) N_0.symm
  refine ⟨⟨(i 1).val / 512, hN⟩, flush0_4 _, ?_⟩
  rw [mem_blk]
  obtain ⟨-, -, -, -, -, -, -, -, -, e40, e41, e42⟩ := idx_facts ⟨(i 1).val / 512, hN⟩
  intro a
  match a with
  | ⟨0, _⟩ =>
    show win0_4.index ⟨(i 1).val / 512, hN⟩ (0 : Fin 3) * 4 ≤ (i 0).val
      ∧ (i 0).val < win0_4.index ⟨(i 1).val / 512, hN⟩ (0 : Fin 3) * 4 + 4
    omega
  | ⟨1, _⟩ =>
    show win0_4.index ⟨(i 1).val / 512, hN⟩ (1 : Fin 3) * 512 ≤ (i 1).val
      ∧ (i 1).val < win0_4.index ⟨(i 1).val / 512, hN⟩ (1 : Fin 3) * 512 + 512
    have e41' : win0_4.index ⟨(i 1).val / 512, hN⟩ (1 : Fin 3) = (i 1).val / 512 := e41
    omega
  | ⟨2, _⟩ =>
    show win0_4.index ⟨(i 1).val / 512, hN⟩ (2 : Fin 3) * 1024 ≤ (i 2).val
      ∧ (i 2).val < win0_4.index ⟨(i 1).val / 512, hN⟩ (2 : Fin 3) * 1024 + 1024
    omega

/-- The result array after the run is the specification of the arguments as launched. -/
theorem final (c : Dev nD) :
    (dats m 0 c).arrAt 4 cfg0.N
      = PosEmbed.out (m ((c : Thread nD τ).loc main_arg0)) (m ((c : Thread nD τ).loc main_arg1))
          (m ((c : Thread nD τ).loc main_arg2)) (m ((c : Thread nD τ).loc main_arg3)) := by
  rw [(dats m 0 c).arrAt_eq_of_cover 4 (spec m c) (fun t _ => flushed_eq m c t) cover]
  show PosEmbed.out (V m c main_arg0) (V m c main_arg1) (V m c main_arg2) _ = _
  rw [V_main_arg0, V_main_arg1, V_main_arg2]

/-! ## The run, read -/

/-- Every weakly fair execution of the kernel's program terminates with the result array at the specification of
    the arguments and the arguments unchanged. -/
theorem run : θ_run defs (onTc (τ := τ) (main (F := Ideal))) ⟨m, fun _ => 0, ρ⟩ fun r => ∀ c : Dev nD,
      r.2.mem ((c : Thread nD τ).loc main_v1)
          = PosEmbed.out (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefTerm.lean ====
/-
  The reference's result as one term of its arguments.

  The reference computes  inputs + (take(table, arange(8192)) @ W + b)[None].  jnp.take's own steps are kept as they
  are printed: the row numbers 0 … 8191, each replaced by itself plus 8192 where negative; the test that a row number
  lies in 0 … 8191; the gather of the table's rows at those numbers; a fill value written over every row that failed
  the test. Then the product with W, the bias on every row, and the sum with every batch member of the inputs.
-/
import proofs.«128476_g47974784697239_cont_8to1_c_969_6_alg».proof.Proof.Gen.ReferenceIdeal

noncomputable section

namespace Cert.ReferenceIdeal.RefTerm

open Cert.ReferenceIdeal Cert.ReferenceIdeal.Gen Idealize.ShloMosaic

variable {F : FTy → Type} [FloatOps F]

/-- The row numbers jnp.take looks up, as a column: 0 … 8191, each replaced by itself plus 8192 where it is negative. -/
def lookupIdx : IVec S8192x1 32 :=
  broadcastInDim S8192x1 ![0] bcast_S8192_S8192x1_0
    (select (cmpi .slt (iotaInDim S8192 32 0) (broadcastInDim S8192 ![] bcast_S_S8192 (constantI S_ 32 0#32)))
      (addi (iotaInDim S8192 32 0) (broadcastInDim S8192 ![] bcast_S_S8192 (constantI S_ 32 8192#32)))
      (iotaInDim S8192 32 0))

/-- Which looked-up rows are inside the table: row number at least 0 and at most 8191. -/
def takeOk : IVec S8192 1 :=
  Host.reduce IntOp.andi
    (andi (cmpi .sge lookupIdx (broadcastInDim S8192x1 ![] bcast_S_S8192x1 (constantI S_ 32 0#32)))
      (cmpi .sle lookupIdx (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- jnp.take of the table at those rows: the gathered rows, a row outside the table replaced by the fill value. -/
def takeRows (t : FVec F S8192x1024 .f32) : FVec F S8192x1024 .f32 :=
  select (broadcastInDim S8192x1024 ![0] bcast_S8192_S8192x1024_0 takeOk)
    (Host.gather gather_S8192x1024_S8192x1_S8192x1024_1_0_n_n_0_1_11024 t lookupIdx)
    (broadcastInDim S8192x1024 ![] bcast_S_S8192x1024 (constant S_ .f32 0x7FC00000#32))

/-- The reference's result: the inputs plus, on every batch member, the taken rows times W plus the bias. -/
def refOut (x : FVec F S4x8192x1024 .f32) (t : FVec F S8192x1024 .f32) (w : FVec F S1024x1024 .f32) (b : FVec F S1024 .f32) :
    FVec F S4x8192x1024 .f32 :=
  addf x (broadcastInDim S4x8192x1024 ![0, 1, 2] bcast_S1x8192x1024_S4x8192x1024_0_1_2
    (broadcastInDim S1x8192x1024 ![1, 2] bcast_S8192x1024_S1x8192x1024_1_2
      (addf (Host.dotGeneral dot_S8192x1024_S1024x1024_S8192x1024_1_0_0_1_n_n none (takeRows t) w)
        (broadcastInDim S8192x1024 ![0, 1] bcast_S1x1024_S8192x1024_0_1
          (broadcastInDim S1x1024 ![1] bcast_S1024_S1x1024_1 b)))))

end Cert.ReferenceIdeal.RefTerm

end
-- ==== Proof.RefRun.lean ====
/-
  The reference program's run, read back.

  The reference computes  inputs + (take(table, arange(8192)) @ W + b)[None].  Its @main is a straight line of 31 host
  operations once the two functions jax outlined are unfolded at their calls: the row numbers 0 … 8191; jnp.take's own
  steps over them (a negative row number wraps by the table's height, a row number outside 0 … 8191 is marked, the rows
  are gathered, a marked row is overwritten by a fill value); the product with W; the bias added to every row; and the
  result added to every batch member of the inputs.  Every weakly fair execution terminates with the result buffer at
  that chain of operations applied to the arguments (the term `refOut`, its gathered table `takeRows`), and with
  the arguments unchanged.
-/
import proofs.«128476_g47974784697239_cont_8to1_c_969_6_alg».proof.Proof.RefTerm
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-! ## @main as a list of operations -/

/-- @main's 31 operations in order, the two calls unfolded: the row numbers; jnp.take's twenty-three over the call's
    buffers (the select of `_where` among them); then the product, the bias broadcast twice, the sum, the result
    broadcast twice, the final sum. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select,
    binary main_v1 main_arg2 main_v2 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    unary main_arg3 main_v3 (broadcastInDim S1x1024 ![1] bcast_S1024_S1x1024_1 : (⟨S1024, .f32⟩ : BufTy).Contents (Elt F) → (⟨S1x1024, .f32⟩ : BufTy).Contents (Elt F)),
    unary main_v3 main_v4 (broadcastInDim S8192x1024 ![0, 1] bcast_S1x1024_S8192x1024_0_1 : (⟨S1x1024, .f32⟩ : BufTy).Contents (Elt F) → (⟨S8192x1024, .f32⟩ : BufTy).Contents (Elt F)),
    binary main_v2 main_v4 main_v5 (addf : (⟨S8192x1024, .f32⟩ : BufTy).Contents (Elt F) → (⟨S8192x1024, .f32⟩ : BufTy).Contents (Elt F) → (⟨S8192x1024, .f32⟩ : BufTy).Contents (Elt F)),
    unary main_v5 main_v6 (broadcastInDim S1x8192x1024 ![1, 2] bcast_S8192x1024_S1x8192x1024_1_2 : (⟨S8192x1024, .f32⟩ : BufTy).Contents (Elt F) → (⟨S1x8192x1024, .f32⟩ : BufTy).Contents (Elt F)),
    unary main_v6 main_v7 (broadcastInDim S4x8192x1024 ![0, 1, 2] bcast_S1x8192x1024_S4x8192x1024_0_1_2 : (⟨S1x8192x1024, .f32⟩ : BufTy).Contents (Elt F) → (⟨S4x8192x1024, .f32⟩ : BufTy).Contents (Elt F)),
    binary main_arg0 main_v7 main_v8 (addf : (⟨S4x8192x1024, .f32⟩ : BufTy).Contents (Elt F) → (⟨S4x8192x1024, .f32⟩ : BufTy).Contents (Elt F) → (⟨S4x8192x1024, .f32⟩ : BufTy).Contents (Elt F)) ]

set_option maxRecDepth 1024 in
/-- @main is that straight line: the two functions unfolded at their calls, sequencing reassociated. -/
theorem main_eq (c : Dev nD) : main (F := F) c = seq ops := by
  simp only [main, fn_take.body, fn_where.body, seq, bind_assoc, pure_bind]

attribute [local irreducible] Host.reduce Host.gather in
set_option maxRecDepth 8192 in
set_option maxHeartbeats 8000000 in
/-- The operations' fold at the result buffer is `refOut` of the arguments: the fold is rewritten one operation at a
    time, each either writing the buffer read or leaving it, and what is left is the chain of operations itself; the
    and-reduce and the gather stay folded meanwhile. -/
theorem out_eq (V : Valuation τ sig (Elt F)) :
    after ops V (main_v8 : DevRef τ sig)
      = refOut (V (main_arg0 : DevRef τ sig)) (V (main_arg1 : DevRef τ sig)) (V (main_arg2 : DevRef τ sig))
          (V (main_arg3 : DevRef τ sig)) := by
  after_results
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem arg2_eq (V : Valuation τ sig (Elt F)) : after ops V (main_arg2 : DevRef τ sig) = V (main_arg2 : DevRef τ sig) := by
  simp only [after_cons, after_nil]
  rfl

theorem arg3_eq (V : Valuation τ sig (Elt F)) : after ops V (main_arg3 : DevRef τ sig) = V (main_arg3 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., unary_bufs_sub .., unary_bufs_sub .., binary_bufs_sub .., unary_bufs_sub .., unary_bufs_sub ..,
    binary_bufs_sub ..⟩

/-- From any memory with zero counters, every weakly fair execution of @main terminates with the result buffer at
    `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v8).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.LibGatherScatter.lean ====
/-
  How a gather and a float scatter-add read AT ONE INDEX, for four dimension-number records:
  a gather of table rows and a gather of vector entries by a column of start words, and the scatter-adds that send
  update rows, or update entries, back to the rows those words name.

  A gather reads its start word SIGNED and CLAMPS it into the table: a negative word reads row 0, a word past the end
  reads the last row. A scatter-add reads the word signed and does NOT clamp: an update whose word is outside the table
  is dropped, so operand entry i receives exactly the updates whose word, as an integer, equals i.

  Every statement is for an arbitrary record whose fields are given as hypotheses, so that it applies to any record
  with those fields, at arbitrary extents.
-/
import Idealize.ShloMosaic.PureOps.Ideal
import Idealize.ShloMosaic.Lib.ValueIdx
import Idealize.ShloMosaic.Lib.StableHlo.Predicate

noncomputable section

open scoped BigOperators

namespace Cert.LibGS

open Idealize.ShloMosaic Idealize.ShloMosaic.ValueIdx

/-- The shape of an array of N rows and C columns. -/
abbrev Sh (N C : Nat) : Shape := ⟨2, ![N, C]⟩

/-- An N × C array of extended reals. -/
abbrev RArr (N C : Nat) : Type := (Sh N C).Idx → EReal

/-- The table row a start word names: the word read signed, clamped into the N rows. -/
def rowOf (N : Nat) (hN : 0 < N) (w : BitVec 32) : Fin N := ⟨min w.toInt.toNat (N - 1), by omega⟩

/-! ## The row gather: one table row per start word -/

section GatherRows

variable {N n C : Nat} (d : GatherDims (Sh N C) (Sh n 1) (Sh n C))

/-- An index of the result read on an axis known to be the first gives the row coordinate. -/
theorem ix2_val_zero {a b : Nat} (e : Fin a) (c : Fin b) (X : Fin 2) (h : X = 0) : (ix2 e c X).val = e.val := by
  subst h; rfl

/-- An index of the result read on an axis known to be the second gives the column coordinate. -/
theorem ix2_val_one {a b : Nat} (e : Fin a) (c : Fin b) (X : Fin 2) (h : X = 1) : (ix2 e c X).val = c.val := by
  subst h; rfl

/-- When the second axis is the one offset axis, the result's batch axes are the first alone. -/
theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

/-- The start word a result entry (e, c) reads is the one in row e of the index column. -/
theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

/-- On the table's row axis the operand index is the start word, read signed and clamped into the table. -/
theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

/-- On the table's column axis the operand index is the result's column. -/
theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

/-- THE ROW GATHER AT ONE ENTRY: entry (e, c) of the result is column c of the table row that start word e names. -/
theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

/-! ## The vector gather: one entry per start word -/

/-- The rank-1 index at a coordinate, written in two ways. -/
theorem ix1_eq_ofFin {n : Nat} (e : Fin n) : ix1 e = Shape.Idx.ofFin e := by
  funext a
  match a with
  | ⟨0, _⟩ => exact Fin.ext rfl

/-- Row e of an index column, written in two ways. -/
theorem ixP_eq_ix2 {n : Nat} (e : Fin n) : StableHlo.Predicate.ixP e = ix2 e (0 : Fin 1) := by
  funext a
  match a with
  | ⟨0, _⟩ => rfl
  | ⟨1, _⟩ => rfl

/-- THE VECTOR GATHER AT ONE ENTRY: entry e of the result is the vector's entry that start word e names. -/
theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

/-! ## The row scatter-add -/

/-- An index read on two names of one axis gives one coordinate. -/
theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

/-- When the second axis is the one window axis, the updates' scatter axes are the first alone. -/
theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

/-- The start word an update entry j reads is the one in j's row of the index column. -/
theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the row axis is the start word read signed. -/
theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

/-- The window's start on the column axis is zero. -/
theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

/-- The window coordinate on the row axis, an inserted one, is zero. -/
theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

/-- The window coordinate on the column axis is the update's column. -/
theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

/-- WHERE AN UPDATE LANDS. Update entry j lands on operand entry t exactly when j's start word, read signed, is t's row
    and j's column is t's column. -/
theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

/-- THE ROW SCATTER-ADD AT ONE ENTRY: entry (i, c) of the result is the operand's entry plus column c of every update
    row whose start word, read signed, is i. (A word outside the table matches no i: its row is dropped.) -/
theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

/-! ## The vector scatter-add -/

section ScatterVec
variable {N n : Nat} (d : ScatterDims ⟨1, ![N]⟩ (Sh n 1) ⟨1, ![n]⟩)

/-- The start word update entry j reads is the one in row j of the index column (the updates have one axis). -/
theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the vector's one axis is the start word read signed. -/
theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

/-- The window coordinate on the vector's one axis, an inserted one, is zero. -/
theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

/-- WHERE AN UPDATE LANDS. Update entry j lands on operand entry t exactly when j's start word, read signed, is t. -/
theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

/-- THE VECTOR SCATTER-ADD AT ONE ENTRY: entry i of the result is the operand's entry plus every update entry whose
    start word, read signed, is i. -/
theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

end Cert.LibGS

end
-- ==== Proof.LibAndReduce.lean ====
/-
  A reduction by `and` over one-bit words that are all 1, started from 1, is 1.

  The library reads such a reduction the other way (a result of 1 makes every word 1); a mask computed from indices
  that are all in range needs this direction. Stated for any shapes and axes.
-/
import Idealize.ShloMosaic.Lib.Affine
import Idealize.ShloMosaic.PureOps.Reduce

namespace Cert.LibAnd

open Idealize.ShloMosaic

/-- A left fold by `and` that starts at 1 and meets only 1s ends at 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_of_all f l _ (IntOp.andi_eq_one.2 ⟨h, hl a List.mem_cons_self⟩) (fun n hn => hl n (List.mem_cons_of_mem _ hn))

/-- A host reduction by `and` whose initial word is 1 and whose operand is 1 everywhere is 1 at every result index. -/
theorem reduce_andi_of_all {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl]
  exact foldl_andi_of_all x _ _ hi (fun i _ => hx i)

end Cert.LibAnd
-- ==== Proof.RefValue.lean ====
/-
  The reference's result is the specification.

  The row numbers jnp.take looks up are 0 … 8191 themselves: none is negative, so none is wrapped; each lies in
  0 … 8191, so the in-range test is 1 at every row and the fill value is never chosen; and the gather of row number e,
  read signed and clamped into the table, is row e. So the taken table IS the table, its product with W at (s, d) is
  ∑ₖ table[s, k] · W[k, d], the two broadcasts of the bias read bias[d], and the two broadcasts of the projected rows
  read row s at every batch member.
-/
import proofs.«128476_g47974784697239_cont_8to1_c_969_6_alg».proof.Proof.RefTerm
import proofs.«128476_g47974784697239_cont_8to1_c_969_6_alg».proof.Proof.LibGatherScatter
import proofs.«128476_g47974784697239_cont_8to1_c_969_6_alg».proof.Proof.LibPlainDot
import proofs.«128476_g47974784697239_cont_8to1_c_969_6_alg».proof.Proof.LibAndReduce
import proofs.«128476_g47974784697239_cont_8to1_c_969_6_alg».proof.Proof.PosEmbed
import Idealize.ShloMosaic.Lib.Pipeline.Value
import Idealize.ShloMosaic.Lib.StableHlo.Predicate

noncomputable section

open scoped BigOperators

namespace Cert.ReferenceIdeal.RefValue

open Cert.ReferenceIdeal Cert.ReferenceIdeal.Gen Cert.ReferenceIdeal.RefTerm Idealize.ShloMosaic Idealize.ShloMosaic.ValueIdx
open Idealize.ShloMosaic.StableHlo.Predicate (slt_iff_toNat sle_iff_toNat sge_iff_toNat toInt_ofNat_small)

/-! ## The row numbers -/

/-- A row number below 8192, written as a 32-bit word, reads back as itself. -/
theorem toNat_row (e : Fin 8192) : (BitVec.ofNat 32 e.val).toNat = e.val := by
  rw [BitVec.toNat_ofNat]
  exact Nat.mod_eq_of_lt (by have := e.isLt; omega)

/-- Row e of the looked-up column is the word e: it is not negative, so it is not wrapped. -/
theorem lookupIdx_apply (e : Fin 8192) : lookupIdx (ix2 e (0 : Fin 1)) = BitVec.ofNat 32 e.val := by
  have hnot : IntOp.cmpi .slt (BitVec.ofNat 32 e.val) 0#32 = 0#1 :=
    eq_zero_of_ne_one fun h => by
      have h' := (slt_iff_toNat (by rw [toNat_row]; have := e.isLt; omega) (by decide)).1 h
      exact absurd h' (Nat.not_lt_zero _)
  unfold lookupIdx
  rw [broadcastInDim_apply ![0] bcast_S8192_S8192x1_0 _ (ix2 e (0 : Fin 1)) (ix1 e) (fun a => by
    match a with
    | ⟨0, _⟩ => rfl)]
  show Scalar.select (IntOp.cmpi .slt (BitVec.ofNat 32 e.val) 0#32) _ (BitVec.ofNat 32 e.val) = _
  rw [hnot, select_zero]

/-- Every looked-up row number passes the in-range test. -/
theorem takeOk_apply (j : S8192.Idx) : takeOk j = 1#1 := by
  unfold takeOk
  refine LibAnd.reduce_andi_of_all _ _ _ _ j rfl (fun i => ?_)
  obtain ⟨e, z, rfl⟩ : ∃ (e : Fin 8192) (z : Fin 1), i = ix2 e z := ⟨i 0, i 1, eq_ix2 i⟩
  have hz : z = 0 := Subsingleton.elim _ _
  subst hz
  show IntOp.andi (IntOp.cmpi .sge (lookupIdx (ix2 e 0)) 0#32) (IntOp.cmpi .sle (lookupIdx (ix2 e 0)) 8191#32) = 1#1
  rw [lookupIdx_apply]
  have hlt : (BitVec.ofNat 32 e.val).toNat < 2 ^ 31 := by rw [toNat_row]; have := e.isLt; omega
  refine IntOp.andi_eq_one.2 ⟨(sge_iff_toNat hlt (by decide)).2 (Nat.zero_le _), (sle_iff_toNat hlt (by decide)).2 ?_⟩
  show (BitVec.ofNat 32 e.val).toNat ≤ 8191
  rw [toNat_row]
  have := e.isLt
  omega

/-- The word e, read signed and clamped into the 8192 rows, is row e. -/
theorem rowOf_row (e : Fin 8192) (h : 0 < 8192) : LibGS.rowOf 8192 h (BitVec.ofNat 32 e.val) = e := by
  apply Fin.ext
  show min (BitVec.ofNat 32 e.val).toInt.toNat (8192 - 1) = e.val
  rw [toInt_ofNat_small e.val (by have := e.isLt; omega), Int.toNat_natCast]
  have := e.isLt
  omega

/-! ## The taken table is the table -/

theorem takeRows_apply (t : FVec Ideal S8192x1024 .f32) (e : Fin 8192) (c : Fin 1024) :
    takeRows t (ix2 e c) = t (ix2 e c) := by
  have hm : broadcastInDim S8192x1024 ![0] bcast_S8192_S8192x1024_0 takeOk (ix2 e c) = 1#1 := takeOk_apply _
  unfold takeRows
  rw [select_apply, hm, select_one,
    LibGS.gather_rows_gen gather_S8192x1024_S8192x1_S8192x1024_1_0_n_n_0_1_11024 (by decide) rfl rfl rfl rfl rfl rfl t lookupIdx e c,
    lookupIdx_apply, rowOf_row]

/-! ## The result -/

/-- The reference's term at the ideal values is the specification, entry by entry. -/
theorem refOut_eq (x : FVec Ideal S4x8192x1024 .f32) (t : FVec Ideal S8192x1024 .f32) (w : FVec Ideal S1024x1024 .f32)
    (b : FVec Ideal S1024 .f32) : refOut x t w b = PosEmbed.out x t w b := by
  funext j
  obtain ⟨a, s, d, rfl⟩ : ∃ (a : Fin 4) (s : Fin 8192) (d : Fin 1024), j = ix3 a s d := ⟨j 0, j 1, j 2, eq_ix3 j⟩
  rw [PosEmbed.out_ix3]
  unfold refOut PosEmbed.proj
  rw [addf_apply,
    broadcastInDim_apply ![0, 1, 2] bcast_S1x8192x1024_S4x8192x1024_0_1_2 _ (ix3 a s d) (ix3 (0 : Fin 1) s d) (fun ax => by
      match ax with
      | ⟨0, _⟩ => rfl
      | ⟨1, _⟩ => rfl
      | ⟨2, _⟩ => rfl),
    broadcastInDim_apply ![1, 2] bcast_S8192x1024_S1x8192x1024_1_2 _ (ix3 (0 : Fin 1) s d) (ix2 s d) (fun ax => by
      match ax with
      | ⟨0, _⟩ => rfl
      | ⟨1, _⟩ => rfl),
    addf_apply,
    LibDot.dotGeneral_plain dot_S8192x1024_S1024x1024_S8192x1024_1_0_0_1_n_n none rfl rfl rfl rfl rfl rfl (takeRows t) w s d,
    broadcastInDim_apply ![0, 1] bcast_S1x1024_S8192x1024_0_1 _ (ix2 s d) (ix2 (0 : Fin 1) d) (fun ax => by
      match ax with
      | ⟨0, _⟩ => rfl
      | ⟨1, _⟩ => rfl),
    broadcastInDim_apply ![1] bcast_S1024_S1x1024_1 _ (ix2 (0 : Fin 1) d) (ix1 d) (fun ax => by
      match ax with
      | ⟨0, _⟩ => rfl)]
  simp only [takeRows_apply]

end Cert.ReferenceIdeal.RefValue

end
-- ==== Proof.lean ====
/-
  A positional embedding added to a batch of sequences: equivalence of the kernel and its reference over the extended reals.

  Both programs compute, for a batch member a of 4, a position s of 8192 and a feature d of 1024,
      out[a, s, d] = inputs[a, s, d] + (∑ₖ table[s, k] · W[k, d] + b[d]).
  The kernel walks the positions in 16 tiles of 512 rows: per tile one block product of the tile's table rows with W
  (both narrowed to bf16 first, which changes no value over the extended reals) into a zero accumulator, the bias row
  added under every row, and the projected tile added under every batch member (Proof/KernelArray.lean). The reference
  looks the table up at positions 0 … 8191 with jnp.take, whose negative-index wrap, range test and fill value all do
  nothing at those positions, so the looked-up table is the table (Proof/RefValue.lean), then multiplies by W, adds the
  bias and adds the result to every batch member; its run is read back operation by operation (Proof/RefRun.lean).
  The two sides meet at one function of the argument arrays (Proof/PosEmbed.lean). No step uses that the inputs are
  finite: both sides are the same sums of the same products in the same order of operands.
  The idealized kernel is the kernel's own text read over the extended reals: nothing was rewritten, so there is
  nothing to preserve.
-/
import proofs.«128476_g47974784697239_cont_8to1_c_969_6_alg».proof.Defs
import proofs.«128476_g47974784697239_cont_8to1_c_969_6_alg».proof.Proof.Gen.Kernel
import proofs.«128476_g47974784697239_cont_8to1_c_969_6_alg».proof.Proof.Gen.Kernel.Skeleton
import proofs.«128476_g47974784697239_cont_8to1_c_969_6_alg».proof.Proof.Gen.Kernel.Launch
import proofs.«128476_g47974784697239_cont_8to1_c_969_6_alg».proof.Proof.Gen.Kernel.Points
import proofs.«128476_g47974784697239_cont_8to1_c_969_6_alg».proof.Proof.Gen.Kernel.Frame
import proofs.«128476_g47974784697239_cont_8to1_c_969_6_alg».proof.Proof.Gen.KernelIdeal
import proofs.«128476_g47974784697239_cont_8to1_c_969_6_alg».proof.Proof.Gen.KernelIdeal.Skeleton
import proofs.«128476_g47974784697239_cont_8to1_c_969_6_alg».proof.Proof.Gen.KernelIdeal.Launch
import proofs.«128476_g47974784697239_cont_8to1_c_969_6_alg».proof.Proof.Gen.KernelIdeal.Points
import proofs.«128476_g47974784697239_cont_8to1_c_969_6_alg».proof.Proof.Gen.KernelIdeal.Frame
import proofs.«128476_g47974784697239_cont_8to1_c_969_6_alg».proof.Proof.Gen.ReferenceIdeal
import proofs.«128476_g47974784697239_cont_8to1_c_969_6_alg».proof.Proof.Gen.Pre_finite_inputs
import proofs.«128476_g47974784697239_cont_8to1_c_969_6_alg».proof.Proof.KernelArray
import proofs.«128476_g47974784697239_cont_8to1_c_969_6_alg».proof.Proof.RefRun
import proofs.«128476_g47974784697239_cont_8to1_c_969_6_alg».proof.Proof.RefValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Nothing was rewritten between the kernel and its reading over the extended reals. -/
theorem preserves : Cert.preserves_Kernel_KernelIdeal := trivial

/-- From memories that agree on the arguments, the kernel's result array ends at the specification of the arguments
    (the kernel's run) and so does the reference's (its run, and its term being the specification). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.refOut_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
